-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x1024 : Shape := ⟨4, ![4, 16, 1024, 1024]⟩
abbrev S4x16x1x1024 : Shape := ⟨4, ![4, 16, 1, 1024]⟩
abbrev S_ : Shape := ⟨0, ![]⟩

class Facts : Prop where
  bcast_S_S4x16x1024x1024 : S_.BroadcastsInDim S4x16x1024x1024 (![] : Fin 0 → Fin S4x16x1024x1024.rank)
  reducesTo_S4x16x1024x1024_S_d0_1_2_3 : S4x16x1024x1024.ReducesTo [0, 1, 2, 3] S_
  h_S_ : 0 < S_.numel
  bcast_S_S4x16x1x1024 : S_.BroadcastsInDim S4x16x1x1024 (![] : Fin 0 → Fin S4x16x1x1024.rank)
  reducesTo_S4x16x1x1024_S_d0_1_2_3 : S4x16x1x1024.ReducesTo [0, 1, 2, 3] S_

variable [Facts]

def fn {F : FTy → Type} [FloatOps F] (main_arg0 : FVec F S4x16x1024x1024 .f32) (main_arg1 : FVec F S4x16x1x1024 .f32) : IVec S_ 1 :=
  let main_v0 : FVec F S4x16x1024x1024 .f32 := Host.absf main_arg0
  let main_cst : FVec F S_ .f32 := constant S_ .f32 0x7F800000#32
  let main_v1 : FVec F S4x16x1024x1024 .f32 := broadcastInDim S4x16x1024x1024 ![] bcast_S_S4x16x1024x1024 main_cst
  let main_v2 : IVec S4x16x1024x1024 1 := cmpf .olt main_v0 main_v1
  let main_c : IVec S_ 1 := constantI S_ 1 1#1
  let main_v3 : IVec S_ 1 := (fun x v => Host.reduce IntOp.andi x v reducesTo_S4x16x1024x1024_S_d0_1_2_3 h_S_) main_v2 main_c
  let main_v4 : FVec F S4x16x1x1024 .f32 := Host.absf main_arg1
  let main_cst_0 : FVec F S_ .f32 := constant S_ .f32 0x7F800000#32
  let main_v5 : FVec F S4x16x1x1024 .f32 := broadcastInDim S4x16x1x1024 ![] bcast_S_S4x16x1x1024 main_cst_0
  let main_v6 : IVec S4x16x1x1024 1 := cmpf .olt main_v4 main_v5
  let main_c_1 : IVec S_ 1 := constantI S_ 1 1#1
  let main_v7 : IVec S_ 1 := (fun x v => Host.reduce IntOp.andi x v reducesTo_S4x16x1x1024_S_d0_1_2_3 h_S_) main_v6 main_c_1
  let main_v8 : IVec S_ 1 := andi main_v3 main_v7
  main_v8
-- ==== Kernel.lean ====
abbrev S4x16x1024x1024 : Shape := ⟨4, ![4, 16, 1024, 1024]⟩
abbrev S4x16x1x1024 : Shape := ⟨4, ![4, 16, 1, 1024]⟩
abbrev S1x2x1024x1024 : Shape := ⟨4, ![1, 2, 1024, 1024]⟩
abbrev S1x2x1x1024 : Shape := ⟨4, ![1, 2, 1, 1024]⟩
abbrev S1x2x128x1024 : Shape := ⟨4, ![1, 2, 128, 1024]⟩
abbrev S1x2x128 : Shape := ⟨3, ![1, 2, 128]⟩
abbrev S1x2x128x1 : Shape := ⟨4, ![1, 2, 128, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x1x1024, .f32⟩
  | .hbm, ⟨2, _⟩ => ⟨S4x16x1024x1024, .f32⟩
  | .local _ .vmem, ⟨0, _⟩ => ⟨S1x2x1024x1024, .f32⟩
  | .local _ .vmem, ⟨1, _⟩ => ⟨S1x2x1024x1024, .f32⟩
  | .local _ .vmem, ⟨2, _⟩ => ⟨S1x2x1x1024, .f32⟩
  | .local _ .vmem, ⟨3, _⟩ => ⟨S1x2x1x1024, .f32⟩
  | .local _ .vmem, ⟨4, _⟩ => ⟨S1x2x1024x1024, .f32⟩
  | .local _ .vmem, ⟨5, _⟩ => ⟨S1x2x1024x1024, .f32⟩
  | _, _ => ⟨S4x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  let c128_i32 : BitVec 32 := 128#32
  let v1 : BitVec 32 := Scalar.muli c0_i32 c128_i32
  v1
def k0_off1 (c0_i32 : BitVec 32) : Fin 4 → Nat :=
  let c0_3 : Index := 0#32
  let c0_4 : Index := 0#32
  let c128_i32 : BitVec 32 := 128#32
  let v1 : BitVec 32 := Scalar.muli c0_i32 c128_i32
  let v2 : BitVec 32 := v1
  let v3 : Index := Scalar.indexCast v2
  let c0_5 : Index := 0#32
  ![0, 0, v3.toNat, 0]
def k0_mult2 : BitVec 32 :=
  let c1_i32 : BitVec 32 := 1#32
  let c128_i32_10 : BitVec 32 := 128#32
  let v18 : BitVec 32 := Scalar.muli c1_i32 c128_i32_10
  v18
def k0_mult3 : BitVec 32 :=
  let c2_i32 : BitVec 32 := 2#32
  let c128_i32_19 : BitVec 32 := 128#32
  let v35 : BitVec 32 := Scalar.muli c2_i32 c128_i32_19
  v35
def k0_mult4 : BitVec 32 :=
  let c3_i32 : BitVec 32 := 3#32
  let c128_i32_28 : BitVec 32 := 128#32
  let v52 : BitVec 32 := Scalar.muli c3_i32 c128_i32_28
  v52
def k0_mult5 : BitVec 32 :=
  let c4_i32 : BitVec 32 := 4#32
  let c128_i32_37 : BitVec 32 := 128#32
  let v69 : BitVec 32 := Scalar.muli c4_i32 c128_i32_37
  v69
def k0_mult6 : BitVec 32 :=
  let c5_i32 : BitVec 32 := 5#32
  let c128_i32_46 : BitVec 32 := 128#32
  let v86 : BitVec 32 := Scalar.muli c5_i32 c128_i32_46
  v86
def k0_mult7 : BitVec 32 :=
  let c6_i32 : BitVec 32 := 6#32
  let c128_i32_55 : BitVec 32 := 128#32
  let v103 : BitVec 32 := Scalar.muli c6_i32 c128_i32_55
  v103
def k0_mult8 : BitVec 32 :=
  let c7_i32 : BitVec 32 := 7#32
  let c128_i32_64 : BitVec 32 := 128#32
  let v120 : BitVec 32 := Scalar.muli c7_i32 c128_i32_64
  v120
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2x1x1024_S1x2x1x1024_0_0_0_0 : ∀ a, (![0, 0, 0, 0] : Fin 4 → Nat) a + S1x2x1x1024.size a ≤ S1x2x1x1024.size a
  h_S1x2x1x1024 : 0 < S1x2x1x1024.numel
  h_S1x2x128x1024 : 0 < S1x2x128x1024.numel
  reduces_S1x2x128x1024_S1x2x128 : S1x2x128x1024.Reduces [3] S1x2x128
  shapeCasts_S1x2x128_S1x2x128x1 : S1x2x128.ShapeCasts S1x2x128x1
  broadcasts_S1x2x128x1_S1x2x128x1024 : S1x2x128x1.Broadcasts S1x2x128x1024
  broadcasts_S1x2x1x1024_S1x2x128x1024 : S1x2x1x1024.Broadcasts S1x2x128x1024
  hrank0 : 0 < grid0.rank
  k0_mult1_dvd : 128 ∣ k0_mult1.toNat
  k0_off1_inb : ∀ (r : Fin 8), ∀ a, (k0_off1 (BitVec.ofNat 32 r.val)) a + S1x2x128x1024.size a ≤ S1x2x1024x1024.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024x1024.size a ≤ S4x16x1024x1024.size a
  hwx0_0 : ∀ i : grid0.Coords, EltTy.bits .f32 = 32 ∨ (Rect.block (s := S4x16x1024x1024) S1x2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1x1024.size a ≤ S4x16x1x1024.size a
  hwx0_1 : ∀ i : grid0.Coords, EltTy.bits .f32 = 32 ∨ (Rect.block (s := S4x16x1x1024) S1x2x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x1024x1024.size a ≤ S4x16x1024x1024.size a
  hwx0_2 : ∀ i : grid0.Coords, EltTy.bits .f32 = 32 ∨ (Rect.block (s := S4x16x1024x1024) S1x2x1024x1024.size (cc0_transform_2 i) (hinb0_2 i)).WholeWords (EltTy.packing .f32)

variable [Facts₀]

abbrev win0_0 : Pipeline.Window sig grid0 :=
  Pipeline.Window.ofSpec (Memref.whole main_arg0) S1x2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x16x1024x1024 : Shape := ⟨4, ![4, 16, 1024, 1024]⟩
abbrev S4x16x1x1024 : Shape := ⟨4, ![4, 16, 1, 1024]⟩
abbrev S_ : Shape := ⟨0, ![]⟩
abbrev S4x16x1024 : Shape := ⟨3, ![4, 16, 1024]⟩
abbrev S4x16x1024x1 : Shape := ⟨4, ![4, 16, 1024, 1]⟩

abbrev nBuf : Space → Nat
  | .hbm => 18
  | .vmem => 0
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x1x1024, .f32⟩
  | .hbm, ⟨2, _⟩ => ⟨S_, .f32⟩
  | .hbm, ⟨3, _⟩ => ⟨S4x16x1024, .f32⟩
  | .hbm, ⟨4, _⟩ => ⟨S_, .f32⟩
  | .hbm, ⟨5, _⟩ => ⟨S4x16x1024, .f32⟩
  | .hbm, ⟨6, _⟩ => ⟨S4x16x1024, .f32⟩
  | .hbm, ⟨7, _⟩ => ⟨S4x16x1024x1, .f32⟩
  | .hbm, ⟨8, _⟩ => ⟨S4x16x1024x1024, .f32⟩
  | .hbm, ⟨9, _⟩ => ⟨S4x16x1024x1024, .f32⟩
  | .hbm, ⟨10, _⟩ => ⟨S4x16x1024x1024, .f32⟩
  | .hbm, ⟨11, _⟩ => ⟨S_, .f32⟩
  | .hbm, ⟨12, _⟩ => ⟨S4x16x1024, .f32⟩
  | .hbm, ⟨13, _⟩ => ⟨S4x16x1024x1, .f32⟩
  | .hbm, ⟨14, _⟩ => ⟨S4x16x1024x1024, .f32⟩
  | .hbm, ⟨15, _⟩ => ⟨S4x16x1024x1024, .f32⟩
  | .hbm, ⟨16, _⟩ => ⟨S4x16x1024x1024, .f32⟩
  | .hbm, ⟨17, _⟩ => ⟨S4x16x1024x1024, .f32⟩
  | _, _ => ⟨S4x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  bcast_S4x16x1x1024_S4x16x1024x1024_0_1_2_3 : S4x16x1x1024.BroadcastsInDim S4x16x1024x1024 (![0, 1, 2, 3] : Fin 4 → Fin S4x16x1024x1024.rank)

variable [Facts₀]

class Facts : Prop extends Facts₀ where

variable [Facts]
-- ==== Proof.RowSoftmax.lean ====
/-
  The function both programs compute, on the extended reals.

  For one row `r : Fin 1024 → EReal` of logits the row's maximum `rowMax r` is the fold of `max` from `-∞` over the row's
  1024 entries; the shifted exponentials are `rowExp r k = exp (r k - rowMax r)`; and the row's softmax is
  `rowSoft r k = rowExp r k / ∑ j, rowExp r j` (the quotient of the extended reals that both programs' divisions denote).
  The result array is, at (b, h, q, k), the softmax of row (b, h, q) of the logits at `k`, times the weight `v (b, h, 0, k)`:
  the weights do not depend on the query row `q`.

  No algebraic law is needed to join the two programs: each computes exactly these operations in this order, on every
  extended real (infinite entries included). The only step that is not a renaming is that the maximum of `-∞` and a row's
  maximum is the row's maximum.
-/
import Idealize.ShloMosaic.PureOps.Ideal.Laws
import Idealize.ShloMosaic.Lib.ValueIdx

noncomputable section

namespace Cert.RowSoftmax

open Idealize.ShloMosaic Idealize.ShloMosaic.ValueIdx

/-- The maximum of a row of 1024 extended reals, folded from `-∞`. -/
def rowMax (r : Fin 1024 → EReal) : EReal :=
  (Finset.univ : Finset (Fin 1024)).fold max (Ideal.ofBits .f32 0xFF800000#32) r

/-- The exponential of an entry less the row's maximum. -/
def rowExp (r : Fin 1024 → EReal) (k : Fin 1024) : EReal := Ideal.exp (r k - rowMax r)

/-- The row's softmax at `k`: the shifted exponential over the sum of the row's shifted exponentials. -/
def rowSoft (r : Fin 1024 → EReal) (k : Fin 1024) : EReal := Ideal.div (rowExp r k) (∑ j : Fin 1024, rowExp r j)

/-- The result: at (b, h, q, k) the softmax of the logits' row (b, h, q) at `k`, times the weight at (b, h, 0, k). -/
def weighted (x : (⟨4, ![4, 16, 1024, 1024]⟩ : Shape).Idx → EReal) (v : (⟨4, ![4, 16, 1, 1024]⟩ : Shape).Idx → EReal) :
    (⟨4, ![4, 16, 1024, 1024]⟩ : Shape).Idx → EReal :=
  fun i => rowSoft (fun k => x (ix4 (i 0) (i 1) (i 2) k)) (i 3) * v (ix4 (i 0) (i 1) (0 : Fin 1) (i 3))

/-- The pattern `0xFF800000` is `-∞`, so taking the maximum with it changes nothing. -/
theorem max_negInf (y : EReal) : max (Ideal.ofBits .f32 0xFF800000#32) y = y := by
  simp [Ideal.ofBits, Ideal.ieee]

/-- The pattern of `+0.0` is the extended real `0`, so a sum started from it is the sum. -/
theorem zero_add_sum (s : EReal) : Ideal.ofBits .f32 0x00000000#32 + s = s := by
  rw [Ideal.ofBits_zero_f32, zero_add]

end Cert.RowSoftmax

end
-- ==== Proof.ChunkValue.lean ====
/-
  One chunk of the kernel body at an index.

  The body handles a block of two heads in eight chunks of 128 query rows. For a chunk `u` (two heads × 128 rows × 1024
  keys) and the block's weights `w` (two heads × one row × 1024 keys) every store's payload is the same term: the row
  maximum (a lane reduction from `-∞`, kept as a column and broadcast along the keys), the exponential of the difference,
  its row sum (a lane reduction from `0`, kept as a column and broadcast), the quotient, and the product with the weights
  broadcast down the 128 rows. Read at (0, h, r, k) it is the softmax of the chunk's row (h, r) at `k` times `w (0, h, 0, k)`.
-/
import proofs.«426217_j23381801959832_3_alg».proof.Proof.Gen.KernelIdeal.Skeleton
import proofs.«426217_j23381801959832_3_alg».proof.Proof.RowSoftmax
import Idealize.ShloMosaic.Lib.Pipeline.Value
import Idealize.ShloMosaic.PureOps.Ideal.Laws
import Idealize.ShloMosaic.Lib.ValueIdx

noncomputable section

namespace Cert.KernelChunk

open Cert.KernelIdeal Cert.KernelIdeal.Gen Idealize.ShloMosaic Idealize.ShloMosaic.ValueIdx Cert.RowSoftmax

/-- Row (h, r) of a chunk. -/
abbrev crow (u : FVec Ideal S1x2x128x1024 .f32) (h : Fin 2) (r : Fin 128) : Fin 1024 → EReal :=
  fun k => u (ix4 (0 : Fin 1) h r k)

/-- The chunk's row maxima. -/
def cmax (u : FVec Ideal S1x2x128x1024 .f32) : FVec Ideal S1x2x128 .f32 :=
  multiReduction .maximumf [3] S1x2x128 u 0xFF800000#32 reduces_S1x2x128x1024_S1x2x128 (.inl rfl) rfl

/-- The chunk's shifted exponentials. -/
def cexp (u : FVec Ideal S1x2x128x1024 .f32) : FVec Ideal S1x2x128x1024 .f32 :=
  exp (subf u (broadcastTo S1x2x128x1024 (shapeCast S1x2x128x1 (cmax u) shapeCasts_S1x2x128_S1x2x128x1) broadcasts_S1x2x128x1_S1x2x128x1024))

/-- The chunk's row sums of them. -/
def csum (u : FVec Ideal S1x2x128x1024 .f32) : FVec Ideal S1x2x128 .f32 :=
  multiReduction .add [3] S1x2x128 (cexp u) 0x00000000#32 reduces_S1x2x128x1024_S1x2x128 (.inl rfl) rfl

/-- The payload of a store is the quotient of those, times the broadcast weights. -/
theorem pay_eq (w : FVec Ideal S1x2x1x1024 .f32) (u : FVec Ideal S1x2x128x1024 .f32) :
    k0_pay3 (F := Ideal) w u
      = mulf (divf (cexp u) (broadcastTo S1x2x128x1024 (shapeCast S1x2x128x1 (csum u) shapeCasts_S1x2x128_S1x2x128x1) broadcasts_S1x2x128x1_S1x2x128x1024))
          (broadcastTo S1x2x128x1024 w broadcasts_S1x2x1x1024_S1x2x128x1024) := rfl

/-- A per-row value kept as a column and broadcast along the keys reads the row's value at every key. -/
theorem column_apply (z : FVec Ideal S1x2x128 .f32) (h : Fin 2) (r : Fin 128) (k : Fin 1024) :
    broadcastTo S1x2x128x1024 (shapeCast S1x2x128x1 z shapeCasts_S1x2x128_S1x2x128x1) broadcasts_S1x2x128x1_S1x2x128x1024 (ix4 (0 : Fin 1) h r k)
      = z (ix3 (0 : Fin 1) h r) := by
  refine (broadcastTo_apply _ broadcasts_S1x2x128x1_S1x2x128x1024 (ix4 (0 : Fin 1) h r k) (ix4 (0 : Fin 1) h r (0 : Fin 1)) (fun a => ?_)).trans
    (shapeCast_apply z shapeCasts_S1x2x128_S1x2x128x1 (ix4 (0 : Fin 1) h r (0 : Fin 1)) (ix3 (0 : Fin 1) h r) ?_)
  · match a with
    | ⟨0, _⟩ => show (0 : Nat) = if (1 : Nat) = 1 then 0 else 0; rw [if_pos rfl]
    | ⟨1, _⟩ => show h.val = if (2 : Nat) = 1 then 0 else h.val; rw [if_neg (by decide)]
    | ⟨2, _⟩ => show r.val = if (128 : Nat) = 1 then 0 else r.val; rw [if_neg (by decide)]
    | ⟨3, _⟩ => show (0 : Nat) = if (1 : Nat) = 1 then 0 else k.val; rw [if_pos rfl]
  · rw [Shape.rowMajor_val_three, Shape.rowMajor_val_four]
    show ((0 : Nat) * 2 + h.val) * 128 + r.val = (((0 : Nat) * 2 + h.val) * 128 + r.val) * 1 + 0
    omega

/-- The weights broadcast down the rows read row 0 at the key. -/
theorem weights_apply (w : FVec Ideal S1x2x1x1024 .f32) (h : Fin 2) (r : Fin 128) (k : Fin 1024) :
    broadcastTo S1x2x128x1024 w broadcasts_S1x2x1x1024_S1x2x128x1024 (ix4 (0 : Fin 1) h r k) = w (ix4 (0 : Fin 1) h (0 : Fin 1) k) := by
  refine broadcastTo_apply w broadcasts_S1x2x1x1024_S1x2x128x1024 (ix4 (0 : Fin 1) h r k) (ix4 (0 : Fin 1) h (0 : Fin 1) k) (fun a => ?_)
  match a with
  | ⟨0, _⟩ => show (0 : Nat) = if (1 : Nat) = 1 then 0 else 0; rw [if_pos rfl]
  | ⟨1, _⟩ => show h.val = if (2 : Nat) = 1 then 0 else h.val; rw [if_neg (by decide)]
  | ⟨2, _⟩ => show (0 : Nat) = if (1 : Nat) = 1 then 0 else r.val; rw [if_pos rfl]
  | ⟨3, _⟩ => show k.val = if (1024 : Nat) = 1 then 0 else k.val; rw [if_neg (by decide)]

/-- The lane maximum at row (h, r) is the row's maximum. -/
theorem cmax_apply (u : FVec Ideal S1x2x128x1024 .f32) (h : Fin 2) (r : Fin 128) :
    cmax u (ix3 (0 : Fin 1) h r) = rowMax (crow u h r) := by
  unfold cmax
  refine (Ideal.multiReduction_maximumf_single u _ reduces_S1x2x128x1024_S1x2x128 (.inl rfl) rfl (ix3 (0 : Fin 1) h r)).trans ?_
  show (Finset.univ : Finset (Fin 1024)).fold max (Ideal.ofBits .f32 0xFF800000#32) _ = rowMax _
  unfold rowMax
  refine congrArg (fun f => (Finset.univ : Finset (Fin 1024)).fold max (Ideal.ofBits .f32 0xFF800000#32) f) ?_
  funext k
  exact congrArg u (funext fun a => Fin.ext (by match a with | ⟨0, _⟩ => rfl | ⟨1, _⟩ => rfl | ⟨2, _⟩ => rfl | ⟨3, _⟩ => rfl))

/-- The shifted exponential at (h, r, k). -/
theorem cexp_apply (u : FVec Ideal S1x2x128x1024 .f32) (h : Fin 2) (r : Fin 128) (k : Fin 1024) :
    cexp u (ix4 (0 : Fin 1) h r k) = rowExp (crow u h r) k := by
  show Ideal.exp (u (ix4 (0 : Fin 1) h r k)
      - broadcastTo S1x2x128x1024 (shapeCast S1x2x128x1 (cmax u) shapeCasts_S1x2x128_S1x2x128x1) broadcasts_S1x2x128x1_S1x2x128x1024 (ix4 (0 : Fin 1) h r k)) = _
  rw [column_apply, cmax_apply]
  rfl

/-- The lane sum at row (h, r) is the sum of the row's shifted exponentials. -/
theorem csum_apply (u : FVec Ideal S1x2x128x1024 .f32) (h : Fin 2) (r : Fin 128) :
    csum u (ix3 (0 : Fin 1) h r) = ∑ k : Fin 1024, rowExp (crow u h r) k := by
  unfold csum
  refine (Ideal.multiReduction_add_single (cexp u) _ reduces_S1x2x128x1024_S1x2x128 (.inl rfl) rfl (ix3 (0 : Fin 1) h r)).trans ?_
  refine Finset.sum_congr rfl fun k _ => ?_
  exact (congrArg (cexp u)
    (funext fun a => Fin.ext (by match a with | ⟨0, _⟩ => rfl | ⟨1, _⟩ => rfl | ⟨2, _⟩ => rfl | ⟨3, _⟩ => rfl))).trans (cexp_apply u h r k)

/-- A store's payload at (0, h, r, k): the softmax of the chunk's row (h, r) at `k`, times the weight at (0, h, 0, k). -/
theorem chunk_apply (w : FVec Ideal S1x2x1x1024 .f32) (u : FVec Ideal S1x2x128x1024 .f32) (h : Fin 2) (r : Fin 128) (k : Fin 1024) :
    k0_pay3 (F := Ideal) w u (ix4 (0 : Fin 1) h r k) = rowSoft (crow u h r) k * w (ix4 (0 : Fin 1) h (0 : Fin 1) k) := by
  rw [pay_eq]
  show Ideal.div (cexp u (ix4 (0 : Fin 1) h r k))
      (broadcastTo S1x2x128x1024 (shapeCast S1x2x128x1 (csum u) shapeCasts_S1x2x128_S1x2x128x1) broadcasts_S1x2x128x1_S1x2x128x1024 (ix4 (0 : Fin 1) h r k))
    * broadcastTo S1x2x128x1024 w broadcasts_S1x2x1x1024_S1x2x128x1024 (ix4 (0 : Fin 1) h r k) = _
  rw [column_apply, csum_apply, cexp_apply, weights_apply]
  rfl

/-- The eight stores' payloads are one term. -/
theorem pay1_eq : @k0_pay1 Ideal _ = @k0_pay3 Ideal _ := rfl
theorem pay2_eq : @k0_pay2 Ideal _ = @k0_pay3 Ideal _ := rfl
theorem pay4_eq : @k0_pay4 Ideal _ = @k0_pay3 Ideal _ := rfl
theorem pay5_eq : @k0_pay5 Ideal _ = @k0_pay3 Ideal _ := rfl
theorem pay6_eq : @k0_pay6 Ideal _ = @k0_pay3 Ideal _ := rfl
theorem pay7_eq : @k0_pay7 Ideal _ = @k0_pay3 Ideal _ := rfl
theorem pay8_eq : @k0_pay8 Ideal _ = @k0_pay3 Ideal _ := rfl

end Cert.KernelChunk

end
-- ==== Proof.BlockValue.lean ====
/-
  What one grid point leaves in the output block.

  A grid point holds a block of two heads: the logits' block `x0` (1 × 2 × 1024 × 1024) and the weights' block `x1`
  (1 × 2 × 1 × 1024). The body fills the output block by eight stores, one per chunk of 128 query rows; the stores'
  rectangles tile the block, and each store's payload is the same chunk term (Proof/ChunkValue.lean) of the rows it
  covers. So the block the body leaves is ONE function of the block index: at (0, h, q, k) the softmax of row (0, h, q) of
  `x0` at `k` times `x1 (0, h, 0, k)` — a row's softmax depends on that row alone, so the cut into chunks does not show.
-/
import proofs.«426217_j23381801959832_3_alg».proof.Proof.Gen.KernelIdeal.Frame
import proofs.«426217_j23381801959832_3_alg».proof.Proof.ChunkValue

set_option maxRecDepth 16384

noncomputable section

namespace Cert.KernelBlock

open Cert.KernelIdeal Cert.KernelIdeal.Gen Idealize.ShloMosaic Idealize.ShloMosaic.TcCoe Idealize.ShloMosaic.Tactic
open Idealize.ShloMosaic.ValueIdx Cert.RowSoftmax Cert.KernelChunk
open Idealize.SL Idealize.SL.Sem

/-- The block's value at explicit coordinates. -/
def blockAt (x0 : Vec Ideal S1x2x1024x1024 .f32) (x1 : Vec Ideal S1x2x1x1024 .f32) (z : Fin 1) (h : Fin 2) (q : Fin 1024) (k : Fin 1024) : EReal :=
  rowSoft (fun k' => x0 (ix4 z h q k')) k * x1 (ix4 z h (0 : Fin 1) k)

/-- The block as a function of its index. -/
def blockFn (x0 : Vec Ideal S1x2x1024x1024 .f32) (x1 : Vec Ideal S1x2x1x1024 .f32) : Vec Ideal S1x2x1024x1024 .f32 :=
  fun y => blockAt x0 x1 (y 0) (y 1) (y 2) (y 3)

theorem blockFn_apply (x0 : Vec Ideal S1x2x1024x1024 .f32) (x1 : Vec Ideal S1x2x1x1024 .f32) (z : Fin 1) (h : Fin 2) (q : Fin 1024) (k : Fin 1024) :
    blockFn x0 x1 (ix4 z h q k) = blockAt x0 x1 z h q k := rfl

/-- ONE STORE: the chunk at row offset `o`, read through its rectangle, is the block function under the rectangle. -/
theorem piece_apply (x0 : Vec Ideal S1x2x1024x1024 .f32) (x1 : Vec Ideal S1x2x1x1024 .f32) (o : Nat)
    (inb : ∀ a, (![0, 0, o, 0] : Fin 4 → Nat) a + (![1, 2, 128, 1024] : Fin 4 → Nat) a ≤ S1x2x1024x1024.size a)
    (inb1 : ∀ a, (![0, 0, 0, 0] : Fin 4 → Nat) a + S1x2x1x1024.size a ≤ S1x2x1x1024.size a)
    (x : S1x2x128x1024.Idx) :
    k0_pay3 (F := Ideal) (View.ld x1 (Rect.unit (s := S1x2x1x1024) ![0, 0, 0, 0] S1x2x1x1024.size inb1))
        (View.ld x0 (Rect.unit (s := S1x2x1024x1024) ![0, 0, o, 0] ![1, 2, 128, 1024] inb)) x
      = blockFn x0 x1 ((Rect.unit (s := S1x2x1024x1024) ![0, 0, o, 0] ![1, 2, 128, 1024] inb).emb x) := by
  obtain ⟨z, h, r, k, rfl⟩ : ∃ (z : Fin 1) (h : Fin 2) (r : Fin 128) (k : Fin 1024), x = ix4 z h r k :=
    ⟨x 0, x 1, x 2, x 3, eq_ix4 x⟩
  obtain rfl : z = 0 := Subsingleton.elim _ _
  have ho : o + 128 ≤ 1024 := inb 2
  have hr : r.val < 128 := r.isLt
  have he : (Rect.unit (s := S1x2x1024x1024) ![0, 0, o, 0] ![1, 2, 128, 1024] inb).emb (ix4 (0 : Fin 1) h r k)
      = ix4 (0 : Fin 1) h (⟨o + r.val, by omega⟩ : Fin 1024) k := by
    funext a; apply Fin.ext
    match a with
    | ⟨0, _⟩ => show 0 + 1 * 0 = 0; omega
    | ⟨1, _⟩ => show 0 + 1 * h.val = h.val; omega
    | ⟨2, _⟩ => show o + 1 * r.val = o + r.val; omega
    | ⟨3, _⟩ => show 0 + 1 * k.val = k.val; omega
  rw [chunk_apply, he, blockFn_apply]
  unfold blockAt
  have hrow : crow (View.ld x0 (Rect.unit (s := S1x2x1024x1024) ![0, 0, o, 0] ![1, 2, 128, 1024] inb)) h r
      = fun k' => x0 (ix4 (0 : Fin 1) h (⟨o + r.val, by omega⟩ : Fin 1024) k') := by
    funext k'
    show x0 ((Rect.unit (s := S1x2x1024x1024) ![0, 0, o, 0] ![1, 2, 128, 1024] inb).idx (ix4 (0 : Fin 1) h r k')) = _
    refine congrArg x0 (funext fun a => Fin.ext ?_)
    match a with
    | ⟨0, _⟩ => show 0 + 1 * 0 = 0; omega
    | ⟨1, _⟩ => show 0 + 1 * h.val = h.val; omega
    | ⟨2, _⟩ => show o + 1 * r.val = o + r.val; omega
    | ⟨3, _⟩ => show 0 + 1 * k'.val = k'.val; omega
  have hw : View.ld x1 (Rect.unit (s := S1x2x1x1024) ![0, 0, 0, 0] S1x2x1x1024.size inb1) (ix4 (0 : Fin 1) h (0 : Fin 1) k)
      = x1 (ix4 (0 : Fin 1) h (0 : Fin 1) k) := by
    show x1 ((Rect.unit (s := S1x2x1x1024) ![0, 0, 0, 0] S1x2x1x1024.size inb1).idx (ix4 (0 : Fin 1) h (0 : Fin 1) k)) = _
    refine congrArg x1 (funext fun a => Fin.ext ?_)
    match a with
    | ⟨0, _⟩ => show 0 + 1 * 0 = 0; omega
    | ⟨1, _⟩ => show 0 + 1 * h.val = h.val; omega
    | ⟨2, _⟩ => show 0 + 1 * 0 = 0; omega
    | ⟨3, _⟩ => show 0 + 1 * k.val = k.val; omega
  rw [hrow, hw]

/-- THE BLOCK a grid point leaves: the eight stores tile it and each agrees with the block function, so the contents
    read back are the block function, whatever the staging buffers held. -/
theorem block_eq (c : Dev nD) (i : grid0.Coords) (arg2 : Memref sig .tc .vmem S1x2x1024x1024 .f32) (harg2 : arg2.IsWhole)
    (arg3 : Memref sig .tc .vmem S1x2x1x1024 .f32) (harg3 : arg3.IsWhole) (arg4 : Memref sig .tc .vmem S1x2x1024x1024 .f32) (harg4 : arg4.IsWhole)
    (x0 : Vec Ideal S1x2x1024x1024 .f32) (x1 : Vec Ideal S1x2x1x1024 .f32) :
    out0_A_2 (F := Ideal) c i arg2 harg2 arg3 harg3 arg4 harg4 x0 x1 = blockFn x0 x1 := by
  unfold out0_A_2
  rw [View.read_writes_eq_canon _ _ _ (cover0_A_2 c i arg2 harg2 arg3 harg3 arg4 harg4 x0 x1)]
  funext y
  refine View.canon_apply_of_pieces (blockFn x0 x1) _ ?_ y (cover0_A_2 c i arg2 harg2 arg3 harg3 arg4 harg4 x0 x1 y)
  unfold kernelRun0_A
  dsimp only
  sl_unfold_words
  simp only [View.readAt_eq_ld, harg2.read_unread, harg3.read_unread, pay1_eq, pay2_eq, pay4_eq, pay5_eq, pay6_eq, pay7_eq, pay8_eq]
  intro p hp x
  simp only [List.mem_cons, List.not_mem_nil, or_false] at hp
  rcases hp with rfl | rfl | rfl | rfl | rfl | rfl | rfl | rfl <;> exact piece_apply x0 x1 _ _ _ x

end Cert.KernelBlock

end
-- ==== Proof.ArrayValue.lean ====
/-
  From blocks to the whole result array.

  The grid has 4 × 8 points; point (b, g) holds heads 2g and 2g+1 of batch b: the three windows' index maps all send it
  to block (b, g, 0, 0), so the logits' block, the weights' block and the output's block sit over the same batch and
  heads. What a point writes back (Proof/BlockValue.lean) is therefore the restriction to its block of ONE function of
  the whole argument arrays — `weighted` of Proof/RowSoftmax.lean: an entry of the array at (b, 2g + h, q, k) is the
  block's at (0, h, q, k), its logits' row is the array's row (b, 2g + h, q), and its weight the array's at (b, 2g + h, 0, k).
  The 32 blocks cover the array (the point over (b, h', ·, ·) is (b, h' / 2)), so after the run the result array is
  `weighted` of the arguments.
-/
import proofs.«426217_j23381801959832_3_alg».proof.Proof.Gen.KernelIdeal.Value
import proofs.«426217_j23381801959832_3_alg».proof.Proof.BlockValue

set_option maxRecDepth 16384

noncomputable section

namespace Cert.KernelArray

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.RowSoftmax Cert.KernelBlock

variable (m : (ℓ : Loc nD τ sig) → Buf (Elt Ideal) ℓ) (ρ : Dev nD → PrngReg)

/-- `weighted` at explicit coordinates. -/
theorem weighted_apply (x : Vec Ideal S4x16x1024x1024 .f32) (v : Vec Ideal S4x16x1x1024 .f32) (b : Fin 4) (h : Fin 16) (q : Fin 1024) (k : Fin 1024) :
    weighted x v (ix4 b h q k) = rowSoft (fun k' => x (ix4 b h q k')) k * v (ix4 b h (0 : Fin 1) k) := rfl

/-- The three index maps over the grid: all are (b, g, 0, 0), with b < 4 and g < 8. -/
theorem windows_move_together : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) ≤ 3 ∧ win0_2.index t (1 : Fin 4) ≤ 7 :=
  (by decide +kernel : ∀ t : Fin grid0.N, _)

/-- Every (batch, pair of heads) is some point's block. -/
theorem head_pairs_have_points : ∀ (b : Fin 4) (g : Fin 8), ∃ t : Fin cfg0.N, win0_2.index t = ![b.val, g.val, 0, 0] :=
  (by decide +kernel : ∀ (b : Fin 4) (g : Fin 8), ∃ t : Fin grid0.N, win0_2.index t = ![b.val, g.val, 0, 0])

/-- WHAT POINT `t` WRITES BACK is block `t` of `weighted` of the argument arrays. -/
theorem point_writes_weighted (c : Dev nD) (t : Fin cfg0.N) :
    (dats m 0 c).flushed 2 t = ((cfg0.win 2).blk t).view.read (Elt Ideal) (weighted (V m c main_arg0) (V m c main_arg1)) := by
  refine (flushed2_A m c t).trans ?_
  refine (congrArg ((cfg0.win 2).cut (grid0.coords t))
    (block_eq c (grid0.coords t) (ms0_0 t) (hs0_0 t) (ms0_1 t) (hs0_1 t) (ms0_2 t) (hs0_2 t) (iblk m c 0 t) (iblk m c 1 t))).trans ?_
  obtain ⟨e00, e01, e02, e03, e10, e11, e12, e13, e22, e23, hb, hg⟩ := windows_move_together t
  funext j
  obtain ⟨z, h, q, k, rfl⟩ : ∃ (z : Fin 1) (h : Fin 2) (q : Fin 1024) (k : Fin 1024), j = ix4 z h q k :=
    ⟨j 0, j 1, j 2, j 3, eq_ix4 j⟩
  have hz : z.val = 0 := by have := z.isLt; omega
  have hh : h.val < 2 := h.isLt
  -- the array index under the output block's entry
  have h2 : ((cfg0.win 2).blk t).view.emb (ix4 z h q k)
      = ix4 (⟨win0_2.index t (0 : Fin 4), by omega⟩ : Fin 4) (⟨win0_2.index t (1 : Fin 4) * 2 + h.val, by omega⟩ : Fin 16) q k := by
    funext a; apply Fin.ext
    match a with
    | ⟨0, _⟩ => show win0_2.index t (0 : Fin 4) * 1 + 1 * z.val = win0_2.index t (0 : Fin 4); omega
    | ⟨1, _⟩ => show win0_2.index t (1 : Fin 4) * 2 + 1 * h.val = win0_2.index t (1 : Fin 4) * 2 + h.val; omega
    | ⟨2, _⟩ => show win0_2.index t (2 : Fin 4) * 1024 + 1 * q.val = q.val; omega
    | ⟨3, _⟩ => show win0_2.index t (3 : Fin 4) * 1024 + 1 * k.val = k.val; omega
  show blockFn (iblk m c 0 t) (iblk m c 1 t) (ix4 z h q k)
      = weighted (V m c main_arg0) (V m c main_arg1) (((cfg0.win 2).blk t).view.emb (ix4 z h q k))
  rw [h2, weighted_apply, blockFn_apply]
  unfold blockAt
  -- the logits' row of the block is the array's row
  have hrow : (fun k' => iblk m c 0 t (ix4 z h q k'))
      = fun k' => V m c main_arg0 (ix4 (⟨win0_2.index t (0 : Fin 4), by omega⟩ : Fin 4) (⟨win0_2.index t (1 : Fin 4) * 2 + h.val, by omega⟩ : Fin 16) q k') := by
    funext k'
    show V m c main_arg0 (((cfg0.win 0).blk t).view.emb (ix4 z h q k')) = _
    refine congrArg (V m c main_arg0) (funext fun a => Fin.ext ?_)
    match a with
    | ⟨0, _⟩ => show win0_0.index t (0 : Fin 4) * 1 + 1 * z.val = win0_2.index t (0 : Fin 4); omega
    | ⟨1, _⟩ => show win0_0.index t (1 : Fin 4) * 2 + 1 * h.val = win0_2.index t (1 : Fin 4) * 2 + h.val; omega
    | ⟨2, _⟩ => show win0_0.index t (2 : Fin 4) * 1024 + 1 * q.val = q.val; omega
    | ⟨3, _⟩ => show win0_0.index t (3 : Fin 4) * 1024 + 1 * k'.val = k'.val; omega
  -- the block's weight is the array's
  have hw : iblk m c 1 t (ix4 z h (0 : Fin 1) k)
      = V m c main_arg1 (ix4 (⟨win0_2.index t (0 : Fin 4), by omega⟩ : Fin 4) (⟨win0_2.index t (1 : Fin 4) * 2 + h.val, by omega⟩ : Fin 16) (0 : Fin 1) k) := by
    show V m c main_arg1 (((cfg0.win 1).blk t).view.emb (ix4 z h (0 : Fin 1) k)) = _
    refine congrArg (V m c main_arg1) (funext fun a => Fin.ext ?_)
    match a with
    | ⟨0, _⟩ => show win0_1.index t (0 : Fin 4) * 1 + 1 * z.val = win0_2.index t (0 : Fin 4); omega
    | ⟨1, _⟩ => show win0_1.index t (1 : Fin 4) * 2 + 1 * h.val = win0_2.index t (1 : Fin 4) * 2 + h.val; omega
    | ⟨2, _⟩ => show win0_1.index t (2 : Fin 4) * 1 + 1 * 0 = 0; omega
    | ⟨3, _⟩ => show win0_1.index t (3 : Fin 4) * 1024 + 1 * k.val = k.val; omega
  rw [hrow, hw]

/-- An index of the array is in point `t`'s block iff each coordinate is in the block's range on its axis. -/
theorem mem_head_pair_block (t : Fin cfg0.N) (i : S4x16x1024x1024.Idx) :
    i ∈ ((cfg0.win 2).blk t).view.set ↔ ∀ a : Fin 4, win0_2.index t a * S1x2x1024x1024.size a ≤ (i a).val ∧ (i a).val < win0_2.index t a * S1x2x1024x1024.size a + S1x2x1024x1024.size a := by
  show i ∈ ((View.whole main_v0).slice (win0_2.rect t)).set ↔ _
  rw [View.set_slice_whole, Rect.mem_set_unit]
  exact Iff.rfl

/-- The blocks cover the array: the point over (b, h', ·, ·) is the one whose block index is (b, h' / 2, 0, 0). -/
theorem blocks_cover (i : S4x16x1024x1024.Idx) :
    ∃ t : Fin cfg0.N, (cfg0.win 2).flush t = true ∧ i ∈ ((cfg0.win 2).blk t).view.set := by
  have hi0 : (i 0).val < 4 := (i 0).isLt
  have hi1 : (i 1).val < 16 := (i 1).isLt
  have hi2 : (i 2).val < 1024 := (i 2).isLt
  have hi3 : (i 3).val < 1024 := (i 3).isLt
  obtain ⟨t, ht⟩ := head_pairs_have_points ⟨(i 0).val, hi0⟩ ⟨(i 1).val / 2, by omega⟩
  have q0 : win0_2.index t (0 : Fin 4) = (i 0).val := congrFun ht 0
  have q1 : win0_2.index t (1 : Fin 4) = (i 1).val / 2 := congrFun ht 1
  have q2 : win0_2.index t (2 : Fin 4) = 0 := congrFun ht 2
  have q3 : win0_2.index t (3 : Fin 4) = 0 := congrFun ht 3
  refine ⟨t, flush0_2 t, ?_⟩
  rw [mem_head_pair_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 2 ≤ (i 1).val ∧ (i 1).val < win0_2.index t (1 : Fin 4) * 2 + 2; omega
  | ⟨2, _⟩ => show win0_2.index t (2 : Fin 4) * 1024 ≤ (i 2).val ∧ (i 2).val < win0_2.index t (2 : Fin 4) * 1024 + 1024; omega
  | ⟨3, _⟩ => show win0_2.index t (3 : Fin 4) * 1024 ≤ (i 3).val ∧ (i 3).val < win0_2.index t (3 : Fin 4) * 1024 + 1024; omega

/-- THE ARRAY after the run: `weighted` of the argument arrays. -/
theorem result_array (c : Dev nD) :
    (dats m 0 c).arrAt 2 cfg0.N = weighted (m ((c : Thread nD τ).loc main_arg0)) (m ((c : Thread nD τ).loc main_arg1)) :=
  (dats m 0 c).arrAt_eq_of_cover 2 (weighted (V m c main_arg0) (V m c main_arg1)) (fun t _ => point_writes_weighted m c t) blocks_cover

/-- The kernel's run: the result array at `weighted` of the arguments, the arguments unchanged. -/
theorem kernel_run : θ_run defs (onTc (τ := τ) (main (F := Ideal))) ⟨m, fun _ => 0, ρ⟩ fun r => ∀ c : Dev nD,
      r.2.mem ((c : Thread nD τ).loc main_v0) = weighted (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (run_blocks m ρ)

end Cert.KernelArray

end
-- ==== Proof.RefWeighted.lean ====
/-
  The reference's result is the row-softmax times the weights.

  The reference takes each row's maximum by a host reduction from `-∞`, takes the maximum of that with a broadcast `-∞`
  (which changes nothing), subtracts it from the row, exponentiates, sums the row from `0`, divides and multiplies by
  the weights broadcast over the query rows. Read at an index (b, h, q, k), stage by stage, this is `weighted` of
  Proof/RowSoftmax.lean: the row's maximum is the fold of `max` over the row's 1024 entries, the denominator the sum of the
  row's shifted exponentials, and the weight is read at (b, h, 0, k).
-/
import proofs.«426217_j23381801959832_3_alg».proof.Proof.Gen.ReferenceIdeal.Read
import proofs.«426217_j23381801959832_3_alg».proof.Proof.RowSoftmax

noncomputable section

namespace Cert.RefWeighted

open Cert.ReferenceIdeal Cert.ReferenceIdeal.Gen Cert.ReferenceIdeal.Read Idealize.ShloMosaic Idealize.ShloMosaic.ValueIdx Cert.RowSoftmax

/-- Row (b, h, q) of the logits. -/
abbrev row (x0 : (⟨S4x16x1024x1024, .f32⟩ : BufTy).Contents (Elt Ideal)) (b : Fin 4) (h : Fin 16) (q : Fin 1024) :
    Fin 1024 → EReal := fun k => x0 (ix4 b h q k)

/-- The logits reduce over their last axis to the three leading ones (the witness that names a row's entries). -/
theorem reduces_last : S4x16x1024x1024.Reduces [3] S4x16x1024 := by decide

/-- The host's maximum over the last axis, at (b, h, q), is the row's maximum. -/
theorem reduceMax_eq (x0 : (⟨S4x16x1024x1024, .f32⟩ : BufTy).Contents (Elt Ideal)) (b : Fin 4) (h : Fin 16) (q : Fin 1024) :
    val_main_v0 (F := Ideal) x0 (ix3 b h q) = rowMax (row x0 b h q) := by
  unfold val_main_v0
  refine (Host.reduce_eq_fold_single (FloatOps.maximumf (F := Ideal) (φ := .f32)) x0 _ reducesTo_S4x16x1024x1024_S4x16x1024_d3 reduces_last h_S_ (ix3 b h q)).trans ?_
  show (Finset.univ : Finset (Fin 1024)).fold max (Ideal.ofBits .f32 0xFF800000#32) _ = rowMax _
  unfold rowMax
  refine congrArg (fun f => (Finset.univ : Finset (Fin 1024)).fold max (Ideal.ofBits .f32 0xFF800000#32) f) ?_
  funext k
  exact congrArg x0 (funext fun a => Fin.ext (by match a with | ⟨0, _⟩ => rfl | ⟨1, _⟩ => rfl | ⟨2, _⟩ => rfl | ⟨3, _⟩ => rfl))

/-- The maximum with the broadcast `-∞` is still the row's maximum. -/
theorem max_eq (x0 : (⟨S4x16x1024x1024, .f32⟩ : BufTy).Contents (Elt Ideal)) (b : Fin 4) (h : Fin 16) (q : Fin 1024) :
    val_main_v2 (F := Ideal) x0 (ix3 b h q) = rowMax (row x0 b h q) := by
  rw [val_main_v2_apply, val_main_v1_apply, val_main_cst_0_apply, reduceMax_eq]
  exact max_negInf _

/-- The exponential stage at (b, h, q, k) is the row's shifted exponential at `k`. -/
theorem exp_eq (x0 : (⟨S4x16x1024x1024, .f32⟩ : BufTy).Contents (Elt Ideal)) (b : Fin 4) (h : Fin 16) (q : Fin 1024) (k : Fin 1024) :
    val_main_v6 (F := Ideal) x0 (ix4 b h q k) = rowExp (row x0 b h q) k := by
  rw [val_main_v6_apply, val_main_v5_apply, val_main_v4_apply, val_main_v3_apply]
  have hm : val_main_v2 (F := Ideal) x0 (idx_main_v3 (idx_main_v4 (ix4 b h q k))) = rowMax (row x0 b h q) :=
    (congrArg (val_main_v2 (F := Ideal) x0)
      (funext fun a => Fin.ext (by match a with | ⟨0, _⟩ => rfl | ⟨1, _⟩ => rfl | ⟨2, _⟩ => rfl))).trans (max_eq x0 b h q)
  rw [hm]
  rfl

/-- The sum stage at (b, h, q) is the sum of the row's shifted exponentials. -/
theorem sum_eq (x0 : (⟨S4x16x1024x1024, .f32⟩ : BufTy).Contents (Elt Ideal)) (b : Fin 4) (h : Fin 16) (q : Fin 1024) :
    val_main_v7 (F := Ideal) x0 (ix3 b h q) = ∑ k : Fin 1024, rowExp (row x0 b h q) k := by
  rw [val_main_v7_apply, val_main_cst_1_apply]
  refine (zero_add_sum _).trans (Finset.sum_congr rfl fun k _ => ?_)
  exact (congrArg (val_main_v6 (F := Ideal) x0)
    (funext fun a => Fin.ext (by match a with | ⟨0, _⟩ => rfl | ⟨1, _⟩ => rfl | ⟨2, _⟩ => rfl | ⟨3, _⟩ => rfl))).trans (exp_eq x0 b h q k)

/-- The reference's result array is the row-softmax times the weights. -/
theorem result_eq (x0 : (⟨S4x16x1024x1024, .f32⟩ : BufTy).Contents (Elt Ideal)) (x1 : (⟨S4x16x1x1024, .f32⟩ : BufTy).Contents (Elt Ideal)) :
    val_main_v12 (F := Ideal) x0 x1 = weighted x0 x1 := by
  funext i
  obtain ⟨b, h, q, k, rfl⟩ : ∃ (b : Fin 4) (h : Fin 16) (q : Fin 1024) (k : Fin 1024), i = ix4 b h q k :=
    ⟨i 0, i 1, i 2, i 3, eq_ix4 i⟩
  rw [val_main_v12_apply, val_main_v10_apply, val_main_v11_apply, val_main_v9_apply, val_main_v8_apply, exp_eq]
  have hs : val_main_v7 (F := Ideal) x0 (idx_main_v8 (idx_main_v9 (ix4 b h q k))) = ∑ k' : Fin 1024, rowExp (row x0 b h q) k' :=
    (congrArg (val_main_v7 (F := Ideal) x0)
      (funext fun a => Fin.ext (by match a with | ⟨0, _⟩ => rfl | ⟨1, _⟩ => rfl | ⟨2, _⟩ => rfl))).trans (sum_eq x0 b h q)
  rw [hs]
  have hv : x1 (idx_main_v11 (ix4 b h q k)) = x1 (ix4 b h (0 : Fin 1) k) :=
    congrArg x1 (funext fun a => Fin.ext (by match a with | ⟨0, _⟩ => rfl | ⟨1, _⟩ => rfl | ⟨2, _⟩ => rfl | ⟨3, _⟩ => rfl))
  rw [hv]
  rfl

end Cert.RefWeighted

end
-- ==== Proof.lean ====
/-
  softmax(x, axis = -1) · v for logits x : f32[4, 16, 1024, 1024] and weights v : f32[4, 16, 1, 1024], a Pallas kernel
  against `jax.nn.softmax(x, axis=-1) * v`, as extended reals.

  Both programs compute, at (b, h, q, k),
      exp (x[b,h,q,k] − M) / (Σ_j exp (x[b,h,q,j] − M)) · v[b,h,0,k],      M = max over j of x[b,h,q,j], taken from −∞,
  the function `weighted` of Proof/RowSoftmax.lean. No algebraic law separates them (the same operations in the same order,
  on every extended real), so the precondition that the inputs are finite is never opened.

  * The kernel (grid 4 × 8, two heads per point, eight chunks of 128 query rows inside the body): a chunk's payload at an
    index is the row's softmax times the weight (Proof/ChunkValue.lean: the lane maximum is the fold of `max` over the row,
    the lane sum the sum over the row); the eight stores tile the block and agree with one function of the block index
    (Proof/BlockValue.lean); each point's block is the restriction of `weighted` of the whole arrays and the 32 blocks cover
    the result (Proof/ArrayValue.lean).
  * The reference: its sixteen host operations read at an index are the same function (Proof/RefWeighted.lean); its one
    extra operation, the maximum of the row maximum with a broadcast −∞, changes nothing.

  The kernel's frames are its generated frame certificates; the reference's frame is its generated run with the result
  dropped; the idealization rewrote nothing, so the kernel's idealization claim is `True`.
-/
import proofs.«426217_j23381801959832_3_alg».proof.Defs
import proofs.«426217_j23381801959832_3_alg».proof.Proof.Gen.Kernel
import proofs.«426217_j23381801959832_3_alg».proof.Proof.Gen.Kernel.Skeleton
import proofs.«426217_j23381801959832_3_alg».proof.Proof.Gen.Kernel.Launch
import proofs.«426217_j23381801959832_3_alg».proof.Proof.Gen.Kernel.Points
import proofs.«426217_j23381801959832_3_alg».proof.Proof.Gen.Kernel.Frame
import proofs.«426217_j23381801959832_3_alg».proof.Proof.Gen.KernelIdeal
import proofs.«426217_j23381801959832_3_alg».proof.Proof.Gen.KernelIdeal.Skeleton
import proofs.«426217_j23381801959832_3_alg».proof.Proof.Gen.KernelIdeal.Launch
import proofs.«426217_j23381801959832_3_alg».proof.Proof.Gen.KernelIdeal.Points
import proofs.«426217_j23381801959832_3_alg».proof.Proof.Gen.KernelIdeal.Frame
import proofs.«426217_j23381801959832_3_alg».proof.Proof.Gen.ReferenceIdeal
import proofs.«426217_j23381801959832_3_alg».proof.Proof.Gen.Pre_finite_inputs
import proofs.«426217_j23381801959832_3_alg».proof.Proof.Gen.KernelIdeal.Value
import proofs.«426217_j23381801959832_3_alg».proof.Proof.Gen.ReferenceIdeal.Run
import proofs.«426217_j23381801959832_3_alg».proof.Proof.Gen.ReferenceIdeal.Read
import proofs.«426217_j23381801959832_3_alg».proof.Proof.ArrayValue
import proofs.«426217_j23381801959832_3_alg».proof.Proof.RefWeighted
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at `weighted` of the arguments, which agree. -/
theorem algebraic : Cert.algebraic_KernelIdeal_ReferenceIdeal := by
  intro m ρ m' ρ' _ hagree
  refine ⟨fun c => Cert.RowSoftmax.weighted (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelArray.kernel_run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v12_eq, Cert.RefWeighted.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
